-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x2048 : Shape := ⟨2, ![2048, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S1024x2048 .f32) (main_arg1 : FVec F S2048x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S1024x2048 : Shape := ⟨2, ![1024, 2048]⟩
abbrev S2048x2048 : Shape := ⟨2, ![2048, 2048]⟩
abbrev S1024x1 : Shape := ⟨2, ![1024, 1]⟩
abbrev S512x2048 : Shape := ⟨2, ![512, 2048]⟩
abbrev S512x1 : Shape := ⟨2, ![512, 1]⟩
abbrev S512 : Shape := ⟨1, ![512]⟩
abbrev S1024 : Shape := ⟨1, ![1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S1024x1, .f32⟩
  | .hbm, ⟨3, _⟩ => ⟨S1024, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S512x1, .f32⟩
  | .local _ .vmem, ⟨4, _⟩ => ⟨S512x1, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S1024x1_S1024 : S1024x1.ShapeCasts S1024
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x2048.size a
  hwx0_0 : ∀ i : grid0.Coords, EltTy.bits .f32 = 32 ∨ (Rect.block (s := S1024x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .f32 = 32 ∨ (Rect.block (s := S1024x1) S512x1.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S2048x2048 : Shape := ⟨2, ![2048, 2048]⟩
abbrev S_ : Shape := ⟨0, ![]⟩
abbrev S1024 : Shape := ⟨1, ![1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S1024x2048_S1024_d1 : S1024x2048.ReducesTo [1] S1024
  h_S_ : 0 < S_.numel
  dot_S1024x2048_S2048x2048_S1024x2048_1_0_0_1_n_n_wf : DotDims.WF S1024x2048 S2048x2048 S1024x2048 [1] [0] [0] [1] [] []

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

class Facts : Prop extends Facts₀ where

variable [Facts]
-- ==== Proof.QuboCost.lean ====
/-
  The quantity both programs compute. For a batch of candidate vectors `x` (the rows of a [1024, 2048] array) and a cost
  matrix `Q` ([2048, 2048]), each row's quadratic form
      cost r = Σ_j (Σ_k x(r,k) · Q(k,j)) · x(r,j),
  read on the extended reals. It is stated once over coordinates and then laid out in the two shapes it is met in: a
  [1024, 1] column (what the grid's row blocks write) and a [1024] vector (the result).
  Both programs form the inner sum over `k` first, multiply by `x(r,j)` on the right and then sum over `j`, so the two
  sides are one expression and the only law of arithmetic used anywhere is `0 + s = s`: nothing asks an entry to be finite.
-/
import Idealize.ShloMosaic.PureOps.Ideal
import Idealize.ShloMosaic.PureOps.Ideal.Laws
import Idealize.ShloMosaic.Lib.ValueIdx

noncomputable section

namespace Cert.QuboCost

open Idealize.ShloMosaic Idealize.ShloMosaic.ValueIdx

/-- The quadratic form of row `r`: the row times the matrix, entry by entry times the row again, summed. -/
def cost (x : FVec Ideal ⟨2, ![1024, 2048]⟩ .f32) (Q : FVec Ideal ⟨2, ![2048, 2048]⟩ .f32) (r : Fin 1024) : EReal :=
  ∑ j : Fin 2048, (∑ k : Fin 2048, x (ix2 r k) * Q (ix2 k j)) * x (ix2 r j)

/-- The costs laid out as a [1024, 1] column: entry (r, 0) is row `r`'s cost. -/
def column (x : FVec Ideal ⟨2, ![1024, 2048]⟩ .f32) (Q : FVec Ideal ⟨2, ![2048, 2048]⟩ .f32) : FVec Ideal ⟨2, ![1024, 1]⟩ .f32 :=
  fun i => cost x Q (i 0)

/-- The costs laid out as a [1024] vector: entry r is row `r`'s cost. -/
def vector (x : FVec Ideal ⟨2, ![1024, 2048]⟩ .f32) (Q : FVec Ideal ⟨2, ![2048, 2048]⟩ .f32) : FVec Ideal ⟨1, ![1024]⟩ .f32 :=
  fun i => cost x Q (i 0)

end Cert.QuboCost

end
-- ==== Proof.RefCost.lean ====
/-
  The reference, read entry by entry, is the specification. Its four host operations are the matrix product `x · Q`, the
  entrywise product with `x`, the zero constant, and the sum over the second axis started from that constant. Entry r of
  the result is therefore 0 + Σ_j (Σ_k x(r,k) · Q(k,j)) · x(r,j), and `0 + s = s` on the extended reals.
-/
import proofs.«425391_j15212774163234_3_alg».proof.Proof.Gen.ReferenceIdeal.Read
import proofs.«425391_j15212774163234_3_alg».proof.Proof.QuboCost

noncomputable section

namespace Cert.ReferenceIdeal.RefCost

open Cert.ReferenceIdeal Cert.ReferenceIdeal.Gen Cert.ReferenceIdeal.Read Idealize.ShloMosaic Idealize.ShloMosaic.ValueIdx

/-- The reduced axis's coordinate j, put back beside row index i, is the entry (i, j). -/
theorem summand_index (r : Fin 1024) (j : Fin 2048) : idx_main_v2 (ix1 r) j = ix2 r j :=
  funext fun a => by match a with | ⟨0, _⟩ => rfl | ⟨1, _⟩ => rfl

/-- The product's left operand at entry (r, j) and contracted coordinate k is x(r, k). -/
theorem left_index (r : Fin 1024) (j k : Fin 2048) : lidx_main_v0 (ix2 r j) k = ix2 r k :=
  funext fun a => by match a with | ⟨0, _⟩ => rfl | ⟨1, _⟩ => rfl

/-- Its right operand there is Q(k, j). -/
theorem right_index (r : Fin 1024) (j k : Fin 2048) : ridx_main_v0 (ix2 r j) k = ix2 k j :=
  funext fun a => by match a with | ⟨0, _⟩ => rfl | ⟨1, _⟩ => rfl

/-- The reference's result is the vector of the rows' quadratic forms. -/
theorem result_eq (x0 : (⟨S1024x2048, .f32⟩ : BufTy).Contents (Elt Ideal)) (x1 : (⟨S2048x2048, .f32⟩ : BufTy).Contents (Elt Ideal)) :
    val_main_v2 (F := Ideal) x0 x1 = Cert.QuboCost.vector x0 x1 := by
  funext i
  obtain ⟨r, rfl⟩ : ∃ r : Fin 1024, i = ix1 r := ⟨i 0, eq_ix1 i⟩
  rw [val_main_v2_apply, val_main_cst_apply, Ideal.ofBits_def, Ideal.ofBits_zero_f32, zero_add]
  show _ = Cert.QuboCost.cost x0 x1 r
  unfold Cert.QuboCost.cost
  refine Finset.sum_congr rfl fun j _ => ?_
  rw [summand_index r j]
  refine (val_main_v1_apply x0 x1 (ix2 r j)).trans ?_
  rw [Ideal.mulf_def]
  refine congrArg (· * x0 (ix2 r j)) ((val_main_v0_apply x0 x1 (ix2 r j)).trans (Finset.sum_congr rfl fun k _ => ?_))
  rw [left_index, right_index]

end Cert.ReferenceIdeal.RefCost

end
-- ==== Proof.RowBlock.lean ====
/-
  One grid point's arithmetic, read at an entry. The point holds a block of 512 rows of `x` ([512, 2048]) and the whole
  matrix `Q`. It narrows both to bf16 (the identity on the extended reals), multiplies them into a zero accumulator
  (entry (p, j) is Σ_k x(p,k) · Q(k,j)), multiplies entry by entry with the unrounded block, sums each row over its 2048
  lanes from the neutral accumulator (so with no initial term), and views the 512 sums as a [512, 1] column. Entry (p, 0) of
  what it stores is therefore Σ_j (Σ_k x(p,k) · Q(k,j)) · x(p,j): the quadratic form of the block's row `p`.
-/
import proofs.«425391_j15212774163234_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.RowBlock

open Cert.KernelIdeal Cert.KernelIdeal.Gen Idealize.ShloMosaic Idealize.ShloMosaic.ValueIdx

/-! ## The matrix product's index maps, axis by axis

The product contracts axis 1 of the left operand with axis 0 of the right one; the other two axes are the result's. -/

theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_contr (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_contr (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The block's product into a zero accumulator, at entry (p, j): the sum over the contracted coordinate. -/
theorem product_apply (a : FVec Ideal S512x2048 .bf16) (b : FVec Ideal S2048x2048 .bf16) (p : Fin 512) (j : Fin 2048) :
    matmul dot_S512x2048_S2048x2048_S512x2048_1_0_0_1_n_n none a b (constant S512x2048 .f32 0x00000000#32) (ix2 p j)
      = ∑ k : Fin 2048, a (ix2 p k) * b (ix2 k j) := by
  refine (Ideal.matmul_constant_zero_apply dot_S512x2048_S2048x2048_S512x2048_1_0_0_1_n_n none a b (ix2 p j)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p j) ((contrEquiv1 dot_S512x2048_S2048x2048_S512x2048_1_0_0_1_n_n 2048 rfl rfl).symm k) = ix2 p k := funext fun a => Fin.ext (by
    match a with
    | ⟨0, _⟩ => exact lhs_row _ _
    | ⟨1, _⟩ => exact (lhs_contr _ _).trans hk)
  have er : dot_S512x2048_S2048x2048_S512x2048_1_0_0_1_n_n.rhsIdx (ix2 p j) ((contrEquiv1 dot_S512x2048_S2048x2048_S512x2048_1_0_0_1_n_n 2048 rfl rfl).symm k) = ix2 k j := funext fun a => Fin.ext (by
    match a with
    | ⟨0, _⟩ => exact (rhs_contr _ _).trans hk
    | ⟨1, _⟩ => exact rhs_col _ _)
  rw [el, er]

/-- The row sum over the 2048 lanes from the neutral accumulator, at row p: the plain sum of the row's entries. -/
theorem rowSum_apply (v : FVec Ideal S512x2048 .f32) (p : Fin 512) :
    multiReduction .add [1] S512 v 0x00000000#32 reduces_S512x2048_S512 (.inl rfl) rfl (ix1 p) = ∑ j : Fin 2048, v (ix2 p j) := by
  refine (Ideal.multiReduction_add_single v 0x00000000#32 reduces_S512x2048_S512 (.inl rfl) rfl (ix1 p)).trans ?_
  refine Finset.sum_congr rfl fun j _ => congrArg v (funext fun a => Fin.ext ?_)
  match a with
  | ⟨0, _⟩ => rfl
  | ⟨1, _⟩ => rfl

/-- Entry (p, 0) of what a point stores is the quadratic form of its block's row p. -/
theorem stored_apply (x0 : Vec Ideal S512x2048 .f32) (x1 : Vec Ideal S2048x2048 .f32) (p : Fin 512) (q : Fin 1) :
    k0_pay1 (F := Ideal) x0 x1 (ix2 p q) = ∑ j : Fin 2048, (∑ k : Fin 2048, x0 (ix2 p k) * x1 (ix2 k j)) * x0 (ix2 p j) := by
  unfold k0_pay1
  refine (shapeCast_apply _ shapeCasts_S512_S512x1 (ix2 p q) (ix1 p) ?_).trans ?_
  · have hq : q.val = 0 := by have := q.isLt; omega
    rw [Shape.rowMajor_val_one, Shape.rowMajor_val_two]
    show p.val = p.val * 1 + q.val
    omega
  refine (rowSum_apply _ p).trans (Finset.sum_congr rfl fun j _ => ?_)
  show FloatOps.mulf _ _ = _
  rw [Ideal.mulf_def]
  refine congrArg (· * x0 (ix2 p j)) ?_
  exact product_apply _ _ p j

end Cert.KernelIdeal.RowBlock

end
-- ==== Proof.CostColumn.lean ====
/-
  From the grid's two row blocks to the whole [1024, 1] column. Point t of the grid reads rows 512·t … 512·t + 511 of `x`
  and the whole of `Q`, and writes rows 512·t … 512·t + 511 of the column. What it writes at its row p is the quadratic
  form of the block's row p, which is row 512·t + p of `x`: so each written block is the matching block of ONE array, the
  column of all the rows' quadratic forms. Row r of the column lies in the block of point r / 512, so the two blocks cover the
  column and it ends holding exactly that array.
-/
import proofs.«425391_j15212774163234_3_alg».proof.Proof.Gen.KernelIdeal.Frame
import proofs.«425391_j15212774163234_3_alg».proof.Proof.RowBlock
import proofs.«425391_j15212774163234_3_alg».proof.Proof.QuboCost
import Idealize.ShloMosaic.Lib.Pipeline.Value

noncomputable section

namespace Cert.KernelIdeal.CostColumn

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- Where each window's block sits at point t, decided over the two points: the row blocks of `x` and of the column are
    block t along the rows; `Q`'s block is the whole matrix. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the block of `x` at point t is row 512·t + p of `x`. -/
theorem xblock_apply (c : Dev nD) (t : Fin cfg0.N) (p : Fin 512) (k : Fin 2048) (r : Fin 1024) (hr : r.val = 512 * t.val + p.val) :
    (iblk m c 0 t : Vec Ideal S512x2048 .f32) (ix2 p k) = (V m c main_arg0 : S1024x2048.Idx → EReal) (ix2 r k) := by
  obtain ⟨e0, e1, -⟩ := block_index t
  unfold iblk
  rw [View.read_apply]
  show V m c main_arg0 _ = V m c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The block of `Q` at any point is `Q`. -/
theorem qblock_apply (c : Dev nD) (t : Fin cfg0.N) (k j : Fin 2048) :
    (iblk m c 1 t : Vec Ideal S2048x2048 .f32) (ix2 k j) = (V m c main_arg1 : S2048x2048.Idx → EReal) (ix2 k j) := by
  obtain ⟨-, -, e2, e3, -⟩ := block_index t
  unfold iblk
  rw [View.read_apply]
  show V m c main_arg1 _ = V m c main_arg1 _
  congr 1
  funext a
  apply Fin.ext
  match a with
  | ⟨0, _⟩ => show win0_1.index t (0 : Fin 2) * 2048 + 1 * k.val = k.val; rw [e2]; omega
  | ⟨1, _⟩ => show win0_1.index t (1 : Fin 2) * 2048 + 1 * j.val = j.val; rw [e3]; omega

/-- What a point stores at its row, when its blocks are rows `base …` of X and the whole of Q: the quadratic form of row
    `base + p` of X, that is the column's entry there. -/
theorem stored_is_cost (x0 : Vec Ideal S512x2048 .f32) (x1 : Vec Ideal S2048x2048 .f32)
    (X : FVec Ideal S1024x2048 .f32) (Q : FVec Ideal S2048x2048 .f32) (base : Nat) (y : S512x1.Idx) (i : S1024x1.Idx)
    (hx : ∀ (p : Fin 512) (k : Fin 2048) (r : Fin 1024), r.val = base + p.val → x0 (ix2 p k) = X (ix2 r k))
    (hq : ∀ k j : Fin 2048, x1 (ix2 k j) = Q (ix2 k j))
    (hi : (i 0).val = base + (y 0).val) :
    k0_pay1 (F := Ideal) x0 x1 y = Cert.QuboCost.column X Q i := by
  obtain ⟨p, q, rfl⟩ : ∃ (p : Fin 512) (q : Fin 1), y = ix2 p q := ⟨y 0, y 1, eq_ix2 y⟩
  refine (Cert.KernelIdeal.RowBlock.stored_apply x0 x1 p q).trans ?_
  unfold Cert.QuboCost.column Cert.QuboCost.cost
  refine Finset.sum_congr rfl fun j _ => ?_
  rw [hx p j (i 0) hi]
  refine congrArg (· * X (ix2 (i 0) j)) (Finset.sum_congr rfl fun k _ => ?_)
  rw [hx p k (i 0) hi, hq k j]

/-- What point t writes back is block t of the column of quadratic forms of the arrays the region finds. -/
theorem flushed_eq (c : Dev nD) (t : Fin cfg0.N) :
    (dats m 0 c).flushed 2 t = ((cfg0.win 2).blk t).view.read (Elt Ideal) (Cert.QuboCost.column (V m c main_arg0) (V m c main_arg1)) := by
  show (cfg0.win 2).cut (grid0.coords t) ((dats m 0 c).after 2 t) = _
  rw [after0_2]
  unfold out0_2
  rw [View.canon_unit_zero origin]
  simp only [View.ld_unit_zero (S := S512x2048) origin, View.ld_unit_zero (S := S2048x2048) origin]
  obtain ⟨-, -, -, -, e4, -⟩ := block_index t
  funext y
  show k0_pay1 (F := Ideal) (iblk m c 0 t) (iblk m c 1 t) y = Cert.QuboCost.column (V m c main_arg0) (V m c main_arg1) (((cfg0.win 2).blk t).view.emb y)
  refine stored_is_cost (iblk m c 0 t) (iblk m c 1 t) (V m c main_arg0) (V m c main_arg1) (512 * t.val) y (((cfg0.win 2).blk t).view.emb y)
    (fun p k r hr => xblock_apply m c t p k r hr) (fun k j => qblock_apply m c t k j) ?_
  show win0_2.index t (0 : Fin 2) * 512 + 1 * (y 0).val = 512 * t.val + (y 0).val
  rw [e4]; omega

/-- A column index is in point t's block exactly when each coordinate is in the block's range on its axis. -/
theorem mem_block (t : Fin cfg0.N) (i : S1024x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

/-- Row r of the column is written by point r / 512. -/
theorem covered (i : S1024x1.Idx) : ∃ t : Fin cfg0.N, (cfg0.win 2).flush t = true ∧ i ∈ ((cfg0.win 2).blk t).view.set := by
  have h0 : (i 0).val < 1024 := (i 0).isLt
  have h1 : (i 1).val < 1 := (i 1).isLt
  have hN : cfg0.N = 2 := N_0
  have hlt : (i 0).val / 512 < cfg0.N := by rw [hN]; omega
  obtain ⟨-, -, -, -, e4, e5⟩ := block_index ⟨(i 0).val / 512, hlt⟩
  refine ⟨⟨(i 0).val / 512, hlt⟩, flush0_2 _, ?_⟩
  rw [mem_block]
  intro a
  match a with
  | ⟨0, _⟩ =>
    show win0_2.index ⟨(i 0).val / 512, hlt⟩ (0 : Fin 2) * 512 ≤ (i 0).val ∧ (i 0).val < win0_2.index ⟨(i 0).val / 512, hlt⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hlt⟩ (1 : Fin 2) * 1 ≤ (i 1).val ∧ (i 1).val < win0_2.index ⟨(i 0).val / 512, hlt⟩ (1 : Fin 2) * 1 + 1
    rw [e5]; omega

/-- So after the run the column holds every row's quadratic form. -/
theorem column_after (c : Dev nD) :
    (dats m 0 c).arrAt 2 cfg0.N = Cert.QuboCost.column (V m c main_arg0) (V m c main_arg1) :=
  (dats m 0 c).arrAt_eq_of_cover 2 _ (fun t _ => flushed_eq m c t) covered

end Cert.KernelIdeal.CostColumn

end
-- ==== Proof.CostRun.lean ====
/-
  The kernel's run, read. The region leaves the [1024, 1] column of the rows' quadratic forms; the one host line after it
  views that column as a [1024] vector, entry r of the vector being entry (r, 0) of the column. So every execution ends with
  the result at the vector of quadratic forms of the argument arrays, and the arguments as they were.
-/
import proofs.«425391_j15212774163234_3_alg».proof.Proof.Gen.KernelIdeal.Frame
import proofs.«425391_j15212774163234_3_alg».proof.Proof.CostColumn
import Idealize.ShloMosaic.Lib.Pipeline.Value
import Idealize.ShloMosaic.Lib.StableHlo.Run

noncomputable section

namespace Cert.KernelIdeal.CostRun

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- What the region hands the line after it, at the column's buffer: the column of quadratic forms. -/
theorem column_handed (c : Dev nD) :
    Pipeline.withArrays (cfgs 0).spec c (V0 m c) (fun w => (dats m 0 c).arrAt w (cfgs 0).N) (Proc.devRef .tc (Pipeline.arrRef spec0 2))
      = Cert.QuboCost.column (V m c main_arg0) (V m c main_arg1) :=
  (Pipeline.withArrays_arr spec0 launch0.win.arr_inj c _ _ 2).trans (Cert.KernelIdeal.CostColumn.column_after m c)

/-- The result buffer after the line that follows the region: the column viewed as a vector. -/
theorem result_after (c : Dev nD) :
    Pipeline.afterTail₀ cfgs (dats m) 0 (V0 m) [hostOps1] c main_v1
      = Cert.QuboCost.vector (m ((c : Thread nD τ).loc main_arg0)) (m ((c : Thread nD τ).loc main_arg1)) := by
  unfold Pipeline.afterTail₀
  show StableHlo.after hostOps1 _ (Proc.devRef .tc main_v1) = _
  after_results
  funext i
  obtain ⟨r, rfl⟩ : ∃ r : Fin 1024, i = ix1 r := ⟨i 0, eq_ix1 i⟩
  show shapeCast S1024 (Pipeline.withArrays (cfgs 0).spec c (V0 m c) (fun w => (dats m 0 c).arrAt w (cfgs 0).N) (Proc.devRef .tc main_v0))
      shapeCasts_S1024x1_S1024 (ix1 r) = _
  refine (shapeCast_apply _ shapeCasts_S1024x1_S1024 (ix1 r) (ix2 r (0 : Fin 1)) ?_).trans ?_
  · rw [Shape.rowMajor_val_two, Shape.rowMajor_val_one]
    show r.val * 1 + 0 = r.val
    omega
  · exact (congrFun (column_handed m c) (ix2 r (0 : Fin 1))).trans rfl

/-- The result buffer is no array of the pipeline: the region passes it by and the line after it writes it. -/
theorem result_bypasses : main_v1 ∈ Pipeline.restRefs sig (cfgs 0).spec :=
  Pipeline.mem_restRefs_of main_v1 rfl (by decide)

/-- Every weakly fair execution ends with the result at the vector of the rows' quadratic forms and the arguments unchanged. -/
theorem run : θ_run defs (onTc (τ := τ) (main (F := Ideal))) ⟨m, fun _ => 0, ρ⟩ fun r => ∀ c : Dev nD,
      r.2.mem ((c.tc : Thread nD τ).loc main_v1)
        = Cert.QuboCost.vector (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 result_bypasses).trans (result_after m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.CostRun

end
-- ==== Proof.lean ====
/-
  A batch of 1024 candidate vectors `x` (rows of length 2048) is scored against a 2048 × 2048 cost matrix `Q`: row r's
  cost is the quadratic form Σ_j (Σ_k x(r,k) · Q(k,j)) · x(r,j).

  The kernel walks two blocks of 512 rows. Each block is multiplied by the whole of `Q` (after a narrowing of both to
  bf16, which on the extended reals changes nothing), multiplied entry by entry with the unnarrowed block, and summed
  along each row; the 512 sums are written as a block of a [1024, 1] column, and a final reshape views the column as a
  [1024] vector. The reference forms `x · Q` whole, multiplies by `x` entry by entry and sums each row from a zero.

  Read on the extended reals both are the same expression, term for term and in the same order of operations: the inner sum
  over k, times x(r,j) on the right, summed over j. The kernel's row sum starts from the neutral accumulator and the
  reference's from the constant zero, so the one law used is 0 + s = s; nothing needs the entries to be finite, and the
  precondition is never opened. The tiling into two row blocks is harmless because a row's cost reads only that row of `x`.

  The parts: QuboCost (the quadratic form, as a column and as a vector), RowBlock (one block's arithmetic at an entry),
  CostColumn (the two blocks make the column), CostRun (the reshape, and the kernel's run), RefCost (the reference is the
  vector). The idealization rewrote no operation, so that conjunct is trivial; the three frames are the generated ones.
-/
import proofs.«425391_j15212774163234_3_alg».proof.Defs
import proofs.«425391_j15212774163234_3_alg».proof.Proof.Gen.Kernel
import proofs.«425391_j15212774163234_3_alg».proof.Proof.Gen.Kernel.Skeleton
import proofs.«425391_j15212774163234_3_alg».proof.Proof.Gen.Kernel.Launch
import proofs.«425391_j15212774163234_3_alg».proof.Proof.Gen.Kernel.Points
import proofs.«425391_j15212774163234_3_alg».proof.Proof.Gen.Kernel.Frame
import proofs.«425391_j15212774163234_3_alg».proof.Proof.Gen.KernelIdeal
import proofs.«425391_j15212774163234_3_alg».proof.Proof.Gen.KernelIdeal.Skeleton
import proofs.«425391_j15212774163234_3_alg».proof.Proof.Gen.KernelIdeal.Launch
import proofs.«425391_j15212774163234_3_alg».proof.Proof.Gen.KernelIdeal.Points
import proofs.«425391_j15212774163234_3_alg».proof.Proof.Gen.KernelIdeal.Frame
import proofs.«425391_j15212774163234_3_alg».proof.Proof.Gen.ReferenceIdeal
import proofs.«425391_j15212774163234_3_alg».proof.Proof.Gen.Pre_finite_inputs
import proofs.«425391_j15212774163234_3_alg».proof.Proof.Gen.ReferenceIdeal.Run
import proofs.«425391_j15212774163234_3_alg».proof.Proof.Gen.ReferenceIdeal.Read
import proofs.«425391_j15212774163234_3_alg».proof.Proof.QuboCost
import proofs.«425391_j15212774163234_3_alg».proof.Proof.RefCost
import proofs.«425391_j15212774163234_3_alg».proof.Proof.CostRun
import Idealize.ShloMosaic.Adequacy
import Idealize.ShloMosaic.Init

noncomputable section

namespace Cert.Proof

open Idealize.ShloMosaic Idealize.SL.Sem

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `Q`, both programs end with the result at the vector of the rows' quadratic
    forms of those arrays: the kernel by its run, the reference by its run read entry by entry. -/
theorem algebraic : Cert.algebraic_KernelIdeal_ReferenceIdeal := by
  intro m ρ m' ρ' _ hagree
  refine ⟨fun c => Cert.QuboCost.vector (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.CostRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefCost.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
